-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x512x512 : Shape := ⟨3, ![4, 512, 512]⟩
abbrev S4x96x512 : Shape := ⟨3, ![4, 96, 512]⟩
abbrev S512x1024 : Shape := ⟨2, ![512, 1024]⟩
abbrev S_ : Shape := ⟨0, ![]⟩

class Facts : Prop where
  bcast_S_S4x512x512 : S_.BroadcastsInDim S4x512x512 (![] : Fin 0 → Fin S4x512x512.rank)
  reducesTo_S4x512x512_S_d0_1_2 : S4x512x512.ReducesTo [0, 1, 2] S_
  h_S_ : 0 < S_.numel
  bcast_S_S4x96x512 : S_.BroadcastsInDim S4x96x512 (![] : Fin 0 → Fin S4x96x512.rank)
  reducesTo_S4x96x512_S_d0_1_2 : S4x96x512.ReducesTo [0, 1, 2] S_
  bcast_S_S512x1024 : S_.BroadcastsInDim S512x1024 (![] : Fin 0 → Fin S512x1024.rank)
  reducesTo_S512x1024_S_d0_1 : S512x1024.ReducesTo [0, 1] S_

variable [Facts]

def fn {F : FTy → Type} [FloatOps F] (main_arg0 : FVec F S4x512x512 .f32) (main_arg1 : FVec F S4x96x512 .f32) (main_arg2 : FVec F S512x1024 .f32) : IVec S_ 1 :=
  let main_v0 : FVec F S4x512x512 .f32 := Host.absf main_arg0
  let main_cst : FVec F S_ .f32 := constant S_ .f32 0x7F800000#32
  let main_v1 : FVec F S4x512x512 .f32 := broadcastInDim S4x512x512 ![] bcast_S_S4x512x512 main_cst
  let main_v2 : IVec S4x512x512 1 := cmpf .olt main_v0 main_v1
  let main_c : IVec S_ 1 := constantI S_ 1 1#1
  let main_v3 : IVec S_ 1 := (fun x v => Host.reduce IntOp.andi x v reducesTo_S4x512x512_S_d0_1_2 h_S_) main_v2 main_c
  let main_v4 : FVec F S4x96x512 .f32 := Host.absf main_arg1
  let main_cst_0 : FVec F S_ .f32 := constant S_ .f32 0x7F800000#32
  let main_v5 : FVec F S4x96x512 .f32 := broadcastInDim S4x96x512 ![] bcast_S_S4x96x512 main_cst_0
  let main_v6 : IVec S4x96x512 1 := cmpf .olt main_v4 main_v5
  let main_c_1 : IVec S_ 1 := constantI S_ 1 1#1
  let main_v7 : IVec S_ 1 := (fun x v => Host.reduce IntOp.andi x v reducesTo_S4x96x512_S_d0_1_2 h_S_) main_v6 main_c_1
  let main_v8 : IVec S_ 1 := andi main_v3 main_v7
  let main_v9 : FVec F S512x1024 .f32 := Host.absf main_arg2
  let main_cst_2 : FVec F S_ .f32 := constant S_ .f32 0x7F800000#32
  let main_v10 : FVec F S512x1024 .f32 := broadcastInDim S512x1024 ![] bcast_S_S512x1024 main_cst_2
  let main_v11 : IVec S512x1024 1 := cmpf .olt main_v9 main_v10
  let main_c_3 : IVec S_ 1 := constantI S_ 1 1#1
  let main_v12 : IVec S_ 1 := (fun x v => Host.reduce IntOp.andi x v reducesTo_S512x1024_S_d0_1 h_S_) main_v11 main_c_3
  let main_v13 : IVec S_ 1 := andi main_v8 main_v12
  main_v13
-- ==== Kernel.lean ====
abbrev S4x512x512 : Shape := ⟨3, ![4, 512, 512]⟩
abbrev S4x96x512 : Shape := ⟨3, ![4, 96, 512]⟩
abbrev S512x1024 : Shape := ⟨2, ![512, 1024]⟩
abbrev S512x512 : Shape := ⟨2, ![512, 512]⟩
abbrev S4x512x96x512 : Shape := ⟨4, ![4, 512, 96, 512]⟩
abbrev S1x32x512 : Shape := ⟨3, ![1, 32, 512]⟩
abbrev S1x96x512 : Shape := ⟨3, ![1, 96, 512]⟩
abbrev S1x32x96x512 : Shape := ⟨4, ![1, 32, 96, 512]⟩
abbrev S32x512 : Shape := ⟨2, ![32, 512]⟩
abbrev S96x512 : Shape := ⟨2, ![96, 512]⟩
abbrev S32x1x512 : Shape := ⟨3, ![32, 1, 512]⟩
abbrev S32x96x512 : Shape := ⟨3, ![32, 96, 512]⟩

abbrev nBuf : Space → Nat
  | .hbm => 8
  | .vmem => 8
  | .smem => 0
  | _ => 0

abbrev bufTy : (tb : Table) → Fin (tcTables nBuf tb) → BufTy
  | .hbm, ⟨0, _⟩ => ⟨S4x512x512, .f32⟩
  | .hbm, ⟨1, _⟩ => ⟨S4x96x512, .f32⟩
  | .hbm, ⟨2, _⟩ => ⟨S512x1024, .f32⟩
  | .hbm, ⟨3, _⟩ => ⟨S512x512, .f32⟩
  | .hbm, ⟨4, _⟩ => ⟨S512x512, .f32⟩
  | .hbm, ⟨5, _⟩ => ⟨S512x512, .f32⟩
  | .hbm, ⟨6, _⟩ => ⟨S512x512, .f32⟩
  | .hbm, ⟨7, _⟩ => ⟨S4x512x96x512, .f32⟩
  | .local _ .vmem, ⟨0, _⟩ => ⟨S1x32x512, .f32⟩
  | .local _ .vmem, ⟨1, _⟩ => ⟨S1x32x512, .f32⟩
  | .local _ .vmem, ⟨2, _⟩ => ⟨S1x96x512, .f32⟩
  | .local _ .vmem, ⟨3, _⟩ => ⟨S1x96x512, .f32⟩
  | .local _ .vmem, ⟨4, _⟩ => ⟨S512x512, .f32⟩
  | .local _ .vmem, ⟨5, _⟩ => ⟨S512x512, .f32⟩
  | .local _ .vmem, ⟨6, _⟩ => ⟨S1x32x96x512, .f32⟩
  | .local _ .vmem, ⟨7, _⟩ => ⟨S1x32x96x512, .f32⟩
  | _, _ => ⟨S4x512x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x32x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x96x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x32x96x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

class Facts₀ : Prop where
  slices_S512x1024_S512x512_0_0 : S512x1024.Slices ![0, 0] S512x512
  transposes_S512x512_S512x512_1_0 : S512x512.Transposes [1, 0] S512x512
  slices_S512x1024_S512x512_0_512 : S512x1024.Slices ![0, 512] S512x512
  inb_S1x32x512_S1x32x512_0_0_0 : ∀ a, (![0, 0, 0] : Fin 3 → Nat) a + S1x32x512.size a ≤ S1x32x512.size a
  h_S1x32x512 : 0 < S1x32x512.numel
  shapeCasts_S1x32x512_S32x512 : S1x32x512.ShapeCasts S32x512
  inb_S1x96x512_S1x96x512_0_0_0 : ∀ a, (![0, 0, 0] : Fin 3 → Nat) a + S1x96x512.size a ≤ S1x96x512.size a
  h_S1x96x512 : 0 < S1x96x512.numel
  shapeCasts_S1x96x512_S96x512 : S1x96x512.ShapeCasts S96x512
  inb_S512x512_S512x512_0_0 : ∀ a, (![0, 0] : Fin 2 → Nat) a + S512x512.size a ≤ S512x512.size a
  h_S512x512 : 0 < S512x512.numel
  shapeCasts_S512x512_S512x512 : S512x512.ShapeCasts S512x512
  bitsLt_bf16_f32 : FTy.bits .bf16 < FTy.bits .f32
  shapeCasts_S32x512_S32x1x512 : S32x512.ShapeCasts S32x1x512
  shapeCasts_S96x512_S1x96x512 : S96x512.ShapeCasts S1x96x512
  broadcasts_S32x1x512_S32x96x512 : S32x1x512.Broadcasts S32x96x512
  broadcasts_S1x96x512_S32x96x512 : S1x96x512.Broadcasts S32x96x512
  inb_S1x32x96x512_S1x32x96x512_0_0_0_0 : ∀ a, (![0, 0, 0, 0] : Fin 4 → Nat) a + S1x32x96x512.size a ≤ S1x32x96x512.size a
  h_S1x32x96x512 : 0 < S1x32x96x512.numel
  shapeCasts_S1x32x96x512_S32x96x512 : S1x32x96x512.ShapeCasts S32x96x512
  shapeCasts_S32x96x512_S1x32x96x512 : S32x96x512.ShapeCasts S1x32x96x512
  dot_S32x512_S512x512_S32x512_1_0_0_1_n_n_wf : DotDims.WF S32x512 S512x512 S32x512 [1] [0] [0] [1] [] []
  dot_S96x512_S512x512_S96x512_1_0_0_1_n_n_wf : DotDims.WF S96x512 S512x512 S96x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x512.size a ≤ S4x512x512.size a
  hwx0_0 : ∀ i : grid0.Coords, EltTy.bits .f32 = 32 ∨ (Rect.block (s := S4x512x512) S1x32x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x96x512.size a ≤ S4x96x512.size a
  hwx0_1 : ∀ i : grid0.Coords, EltTy.bits .f32 = 32 ∨ (Rect.block (s := S4x96x512) S1x96x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S512x512.size a
  hwx0_3 : ∀ i : grid0.Coords, EltTy.bits .f32 = 32 ∨ (Rect.block (s := S512x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x96x512.size a ≤ S4x512x96x512.size a
  hwx0_4 : ∀ i : grid0.Coords, EltTy.bits .f32 = 32 ∨ (Rect.block (s := S4x512x96x512) S1x32x96x512.size (cc0_transform_4 i) (hinb0_4 i)).WholeWords (EltTy.packing .f32)

variable [Facts₀]

def dot_S32x512_S512x512_S32x512_1_0_0_1_n_n : DotDims S32x512 S512x512 S32x512 where
  lhsContracting := [1]
  rhsContracting := [0]
  lhsNonContracting := [0]
  rhsNonContracting := [1]
  lhsBatch := []
  rhsBatch := []
  wf := dot_S32x512_S512x512_S32x512_1_0_0_1_n_n_wf
def dot_S96x512_S512x512_S96x512_1_0_0_1_n_n : DotDims S96x512 S512x512 S96x512 where
  lhsContracting := [1]
  rhsContracting := [0]
  lhsNonContracting := [0]
  rhsNonContracting := [1]
  lhsBatch := []
  rhsBatch := []
  wf := dot_S96x512_S512x512_S96x512_1_0_0_1_n_n_wf

abbrev win0_0 : Pipeline.Window sig grid0 :=
  Pipeline.Window.ofSpec (Memref.whole main_arg0) S1x32x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x96x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v3) S512x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x32x96x512.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S4x512x512 : Shape := ⟨3, ![4, 512, 512]⟩
abbrev S4x96x512 : Shape := ⟨3, ![4, 96, 512]⟩
abbrev S512x1024 : Shape := ⟨2, ![512, 1024]⟩
abbrev S512x512 : Shape := ⟨2, ![512, 512]⟩
abbrev S4x512x1x512 : Shape := ⟨4, ![4, 512, 1, 512]⟩
abbrev S4x1x96x512 : Shape := ⟨4, ![4, 1, 96, 512]⟩
abbrev S4x512x96x512 : Shape := ⟨4, ![4, 512, 96, 512]⟩

abbrev nBuf : Space → Nat
  | .hbm => 12
  | .vmem => 0
  | .smem => 0
  | _ => 0

abbrev bufTy : (tb : Table) → Fin (tcTables nBuf tb) → BufTy
  | .hbm, ⟨0, _⟩ => ⟨S4x512x512, .f32⟩
  | .hbm, ⟨1, _⟩ => ⟨S4x96x512, .f32⟩
  | .hbm, ⟨2, _⟩ => ⟨S512x1024, .f32⟩
  | .hbm, ⟨3, _⟩ => ⟨S512x512, .f32⟩
  | .hbm, ⟨4, _⟩ => ⟨S512x512, .f32⟩
  | .hbm, ⟨5, _⟩ => ⟨S4x512x512, .f32⟩
  | .hbm, ⟨6, _⟩ => ⟨S4x96x512, .f32⟩
  | .hbm, ⟨7, _⟩ => ⟨S4x512x1x512, .f32⟩
  | .hbm, ⟨8, _⟩ => ⟨S4x1x96x512, .f32⟩
  | .hbm, ⟨9, _⟩ => ⟨S4x512x96x512, .f32⟩
  | .hbm, ⟨10, _⟩ => ⟨S4x512x96x512, .f32⟩
  | .hbm, ⟨11, _⟩ => ⟨S4x512x96x512, .f32⟩
  | _, _ => ⟨S4x512x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]

class Facts₀ : Prop where
  slices_S512x1024_S512x512_0_0 : S512x1024.Slices ![0, 0] S512x512
  slices_S512x1024_S512x512_0_512 : S512x1024.Slices ![0, 512] S512x512
  bcast_S4x512x512_S4x512x1x512_0_1_3 : S4x512x512.BroadcastsInDim S4x512x1x512 (![0, 1, 3] : Fin 3 → Fin S4x512x1x512.rank)
  bcast_S4x96x512_S4x1x96x512_0_2_3 : S4x96x512.BroadcastsInDim S4x1x96x512 (![0, 2, 3] : Fin 3 → Fin S4x1x96x512.rank)
  bcast_S4x512x1x512_S4x512x96x512_0_1_2_3 : S4x512x1x512.BroadcastsInDim S4x512x96x512 (![0, 1, 2, 3] : Fin 4 → Fin S4x512x96x512.rank)
  bcast_S4x1x96x512_S4x512x96x512_0_1_2_3 : S4x1x96x512.BroadcastsInDim S4x512x96x512 (![0, 1, 2, 3] : Fin 4 → Fin S4x512x96x512.rank)
  dot_S4x512x512_S512x512_S4x512x512_2_1_01_0_n_n_wf : DotDims.WF S4x512x512 S512x512 S4x512x512 [2] [1] [0, 1] [0] [] []
  dot_S4x96x512_S512x512_S4x96x512_2_1_01_0_n_n_wf : DotDims.WF S4x96x512 S512x512 S4x96x512 [2] [1] [0, 1] [0] [] []

variable [Facts₀]

def dot_S4x512x512_S512x512_S4x512x512_2_1_01_0_n_n : DotDims S4x512x512 S512x512 S4x512x512 where
  lhsContracting := [2]
  rhsContracting := [1]
  lhsNonContracting := [0, 1]
  rhsNonContracting := [0]
  lhsBatch := []
  rhsBatch := []
  wf := dot_S4x512x512_S512x512_S4x512x512_2_1_01_0_n_n_wf
def dot_S4x96x512_S512x512_S4x96x512_2_1_01_0_n_n : DotDims S4x96x512 S512x512 S4x96x512 where
  lhsContracting := [2]
  rhsContracting := [1]
  lhsNonContracting := [0, 1]
  rhsNonContracting := [0]
  lhsBatch := []
  rhsBatch := []
  wf := dot_S4x96x512_S512x512_S4x96x512_2_1_01_0_n_n_wf

class Facts : Prop extends Facts₀ where

variable [Facts]
-- ==== Proof.JointSpec.lean ====
/-
  The joint head as ONE function of the three argument arrays.

  At an output index (b, t, u, v) the result is the encoder row (b, t) against row v of the weight's left half
  plus the decoder row (b, u) against row v of its right half, each a sum over the 512 features:

    joint e d w (b, t, u, v) = (sum over k of e (b, t, k) * w (v, k)) + (sum over k of d (b, u, k) * w (v, 512 + k)).

  Both programs compute exactly these two sums with the factors in this order, so no law of the extended reals
  beyond re-indexing a finite sum is needed and the inputs' finiteness is never used.
-/
import Idealize.ShloMosaic.PureOps.Ideal
import Idealize.ShloMosaic.Lib.ValueIdx

noncomputable section

namespace Cert.Joint

open Idealize.ShloMosaic Idealize.ShloMosaic.ValueIdx

/-- Feature `k` as a column of the weight's left half. -/
abbrev lo (k : Fin 512) : Fin 1024 := ⟨k.val, Nat.lt_of_lt_of_le k.isLt (by decide)⟩

/-- Feature `k` as a column of the weight's right half. -/
abbrev hi (k : Fin 512) : Fin 1024 := ⟨512 + k.val, by have := k.isLt; omega⟩

/-- The encoder's projection: row (b, t) of `e` against row `v` of the left half of `w`. -/
def encProj (e : FVec Ideal ⟨3, ![4, 512, 512]⟩ .f32) (w : FVec Ideal ⟨2, ![512, 1024]⟩ .f32)
    (b : Fin 4) (t : Fin 512) (v : Fin 512) : EReal :=
  ∑ k : Fin 512, e (ix3 b t k) * w (ix2 v (lo k))

/-- The decoder's projection: row (b, u) of `d` against row `v` of the right half of `w`. -/
def decProj (d : FVec Ideal ⟨3, ![4, 96, 512]⟩ .f32) (w : FVec Ideal ⟨2, ![512, 1024]⟩ .f32)
    (b : Fin 4) (u : Fin 96) (v : Fin 512) : EReal :=
  ∑ k : Fin 512, d (ix3 b u k) * w (ix2 v (hi k))

/-- The joint head: the two projections added, the encoder's constant along `u` and the decoder's along `t`. -/
def joint (e : FVec Ideal ⟨3, ![4, 512, 512]⟩ .f32) (d : FVec Ideal ⟨3, ![4, 96, 512]⟩ .f32)
    (w : FVec Ideal ⟨2, ![512, 1024]⟩ .f32) : FVec Ideal ⟨4, ![4, 512, 96, 512]⟩ .f32 :=
  fun i => encProj e w (i 0) (i 1) (i 3) + decProj d w (i 0) (i 2) (i 3)

end Cert.Joint

end
-- ==== Proof.RefJoint.lean ====
/-
  The reference, read index by index, is the joint head.

  The reference slices the weight into its two halves, contracts the encoder (resp. decoder) array with its half over
  the feature axis, inserts a unit axis into each product, broadcasts both to the four-axis result and adds them. At
  an output index (b, t, u, v) the chain of broadcasts reads the encoder product at (b, t, v) and the decoder product
  at (b, u, v); each product is the sum over the feature k of the array's entry (.., k) times the half's entry (v, k);
  and entry (v, k) of the left half is the weight's entry (v, k), of the right half its entry (v, 512 + k). That is
  `joint` literally, so after the composed index functions are identified with coordinates nothing is left to prove.
-/
import proofs.«111491_j87917980549125_1_alg».proof.Proof.Gen.ReferenceIdeal.Read
import proofs.«111491_j87917980549125_1_alg».proof.Proof.JointSpec

noncomputable section

namespace Cert.Joint.Reference

open Idealize.ShloMosaic Idealize.ShloMosaic.ValueIdx Cert.ReferenceIdeal Cert.ReferenceIdeal.Read Cert.Joint

/-- Through the two broadcasts and the contraction, output index (b, t, u, v) reads the encoder at (b, t, k). -/
theorem encIdx (i : S4x512x96x512.Idx) (k : Fin 512) :
    lidx_main_v2 (idx_main_v4 (idx_main_v6 i)) k = ix3 (i 0) (i 1) k :=
  funext fun a => Fin.ext (by match a with | ⟨0, _⟩ => rfl | ⟨1, _⟩ => rfl | ⟨2, _⟩ => rfl)

/-- and the weight, through its left half, at (v, k). -/
theorem encWeightIdx (i : S4x512x96x512.Idx) (k : Fin 512) :
    idx_main_v0 (ridx_main_v2 (idx_main_v4 (idx_main_v6 i)) k) = ix2 (i 3) (lo k) :=
  funext fun a => Fin.ext (by match a with | ⟨0, _⟩ => rfl | ⟨1, _⟩ => rfl)

/-- Likewise the decoder is read at (b, u, k) -/
theorem decIdx (i : S4x512x96x512.Idx) (k : Fin 512) :
    lidx_main_v3 (idx_main_v5 (idx_main_v7 i)) k = ix3 (i 0) (i 2) k :=
  funext fun a => Fin.ext (by match a with | ⟨0, _⟩ => rfl | ⟨1, _⟩ => rfl | ⟨2, _⟩ => rfl)

/-- and the weight, through its right half, at (v, 512 + k). -/
theorem decWeightIdx (i : S4x512x96x512.Idx) (k : Fin 512) :
    idx_main_v1 (ridx_main_v3 (idx_main_v5 (idx_main_v7 i)) k) = ix2 (i 3) (hi k) :=
  funext fun a => Fin.ext (by match a with | ⟨0, _⟩ => rfl | ⟨1, _⟩ => rfl)

/-- The reference's last stage is the joint head of the three arguments. -/
theorem stage_eq_joint (x0 : FVec Ideal S4x512x512 .f32) (x1 : FVec Ideal S4x96x512 .f32) (x2 : FVec Ideal S512x1024 .f32) :
    val_main_v8 (F := Ideal) x0 x1 x2 = joint x0 x1 x2 := by
  funext i
  rw [val_main_v8_apply, val_main_v6_apply, val_main_v4_apply, val_main_v2_apply, val_main_v7_apply, val_main_v5_apply,
    val_main_v3_apply]
  simp only [val_main_v0_apply, val_main_v1_apply, encIdx, encWeightIdx, decIdx, decWeightIdx]
  rfl

end Cert.Joint.Reference

end
-- ==== Proof.LibPlainDot.lean ====
/-
  A matrix product with the plain dimension numbers — `M × K` by `K × N`, the left operand contracted on its
  second axis and the right on its first, no batch axis — read at an output index `(i, j)` at the ideal values:
  the sum over `k : Fin K` of `l (i, k) · r (k, j)`.

  `Ideal.matmul_constant_zero_apply` and `Ideal.dotGeneral_apply` give the sum over the record's own
  contraction index type, with the operand indices named by `lhsIdx` / `rhsIdx`. For the record `DotDims.plain M K N`
  those indices have the coordinates one expects, and its contraction index is one coordinate below `K`, so the sum
  re-indexes over `Fin K`. A printed program's record with these dimension numbers is `DotDims.plain` at its extents by
  `rfl` (the fields are the same lists, and the well-formedness field is a proof), so the lemmas apply to it after a
  `show`. Stated for any `M K N`: nothing here depends on the extents.
-/
import Idealize.ShloMosaic.PureOps.Ideal.Laws
import Idealize.ShloMosaic.Lib.ValueIdx

noncomputable section

namespace Idealize.ShloMosaic.PlainDot

open Idealize.ShloMosaic Idealize.ShloMosaic.ValueIdx

variable (M K N : Nat)

/-- The left operand's row is the output's row. -/
theorem lhs_row (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

/-- The left operand's column is the contraction coordinate. -/
theorem lhs_col (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

/-- The right operand's row is the contraction coordinate. -/
theorem rhs_row (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

/-- The right operand's column is the output's column. -/
theorem rhs_col (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

/-- The contraction sum of a plain product at `i`, over `Fin K`. -/
theorem sum_contr {α : Type*} [AddCommMonoid α] [Mul α] (l : (⟨2, ![M, K]⟩ : Shape).Idx → α) (r : (⟨2, ![K, N]⟩ : Shape).Idx → α)
    (i : (⟨2, ![M, N]⟩ : Shape).Idx) :
    ∑ q : (DotDims.plain M K N).contr.Idx, l ((DotDims.plain M K N).lhsIdx i q) * r ((DotDims.plain M K N).rhsIdx i q)
      = ∑ k : Fin K, l (ix2 (i 0) k) * r (ix2 k (i 1)) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx i ((contrEquiv1 (DotDims.plain M K N) K rfl rfl).symm k) = ix2 (i 0) k :=
    funext fun a => Fin.ext (by
      match a with
      | ⟨0, _⟩ => exact lhs_row M K N _ _
      | ⟨1, _⟩ => exact (lhs_col M K N _ _).trans hk)
  have er : (DotDims.plain M K N).rhsIdx i ((contrEquiv1 (DotDims.plain M K N) K rfl rfl).symm k) = ix2 k (i 1) :=
    funext fun a => Fin.ext (by
      match a with
      | ⟨0, _⟩ => exact (rhs_row M K N _ _).trans hk
      | ⟨1, _⟩ => exact rhs_col M K N _ _)
  rw [el, er]
  rfl

/-- A `tpu.matmul` with the plain dimension numbers into the zero accumulator, read at `i`. -/
theorem matmul_zero_apply {φ₁ φ₂ : FTy} (prec : Option ContractPrecision) (l : FVec Ideal ⟨2, ![M, K]⟩ φ₁)
    (r : FVec Ideal ⟨2, ![K, N]⟩ φ₂) (i : (⟨2, ![M, N]⟩ : Shape).Idx) :
    matmul (DotDims.plain M K N) prec l r (constant ⟨2, ![M, N]⟩ .f32 0x00000000#32) i
      = ∑ k : Fin K, l (ix2 (i 0) k) * r (ix2 k (i 1)) :=
  (Ideal.matmul_constant_zero_apply (DotDims.plain M K N) prec l r i).trans (sum_contr M K N l r i)

end Idealize.ShloMosaic.PlainDot

end
-- ==== Proof.KernelPayload.lean ====
/-
  The kernel body's stored value, read at an index of the output tile.

  At a grid point the body holds an encoder tile x0 (1 x 32 x 512), the decoder block x1 (1 x 96 x 512) and the two
  transposed weight halves x2, x3 (512 x 512, feature by output column). It multiplies the encoder tile by x2 and the
  decoder block by x3 into zero accumulators (the changes of float format are the identity on the ideal values),
  inserts a unit axis into each product, broadcasts both to 32 x 96 x 512, adds them and stores the sum with a leading
  unit axis. At the tile index (0, p, u, v) the store therefore holds

    (sum over k of x0 (0, p, k) * x2 (k, v)) + (sum over k of x1 (0, u, k) * x3 (k, v)).
-/
import proofs.«111491_j87917980549125_1_alg».proof.Proof.Gen.KernelIdeal.Skeleton
import proofs.«111491_j87917980549125_1_alg».proof.Proof.LibPlainDot
import Idealize.ShloMosaic.Lib.Pipeline.Value
import Idealize.ShloMosaic.Lib.ValueLayout
import Idealize.ShloMosaic.Lib.ValueIdx

noncomputable section

namespace Cert.Joint.Kernel

open Idealize.ShloMosaic Idealize.ShloMosaic.ValueIdx Cert.KernelIdeal Cert.KernelIdeal.Gen

/-- A 32 x 512 matrix given a middle unit axis reads, at (p, 0, v), its entry (p, v). -/
theorem midUnit_apply {α : Type} (x : (⟨2, ![32, 512]⟩ : Shape).Idx → α)
    (h : (⟨2, ![32, 512]⟩ : Shape).ShapeCasts ⟨3, ![32, 1, 512]⟩) (p : Fin 32) (z : Fin 1) (v : Fin 512) :
    shapeCast ⟨3, ![32, 1, 512]⟩ x h (ix3 p z v) = x (ix2 p v) :=
  shapeCast_apply x h _ _ (by
    have hz : z.val = 0 := by omega
    rw [Shape.rowMajor_val_three, Shape.rowMajor_val_two]
    show p.val * 512 + v.val = (p.val * 1 + z.val) * 512 + v.val
    rw [hz, Nat.mul_one, Nat.add_zero])

/-- The stored value at (0, p, u, v): the encoder tile's row p against column v of the left half plus the decoder
    block's row u against column v of the right half. -/
theorem pay_apply (x0 : Vec Ideal S1x32x512 .f32) (x1 : Vec Ideal S1x96x512 .f32) (x2 x3 : Vec Ideal S512x512 .f32)
    (z : Fin 1) (p : Fin 32) (u : Fin 96) (v : Fin 512) :
    k0_pay1 (F := Ideal) x0 x1 x2 x3 (ix4 z p u v)
      = (∑ k : Fin 512, x0 (ix3 (0 : Fin 1) p k) * x2 (ix2 k v)) + (∑ k : Fin 512, x1 (ix3 (0 : Fin 1) u k) * x3 (ix2 k v)) := by
  unfold k0_pay1
  refine (shapeCast_abc_1abc_apply _ _ z p u v).trans ?_
  refine congrArg₂ (· + ·) ?_ ?_
  · -- the encoder's product, constant along u
    refine (broadcastTo_apply _ _ (ix3 p u v) (ix3 p (0 : Fin 1) v) (fun a => match a with
      | ⟨0, _⟩ => rfl | ⟨1, _⟩ => rfl | ⟨2, _⟩ => rfl)).trans ?_
    refine (midUnit_apply _ _ p 0 v).trans ?_
    refine (PlainDot.matmul_zero_apply 32 512 512 none _ _ (ix2 p v)).trans ?_
    refine Finset.sum_congr rfl fun k _ => ?_
    refine congrArg₂ (· * ·) ?_ ?_
    · exact shapeCast_1ab_ab_apply x0 _ p k
    · exact congrFun (shapeCast_self x2 _) (ix2 k v)
  · -- the decoder's product, constant along p
    refine (broadcastTo_apply _ _ (ix3 p u v) (ix3 (0 : Fin 1) u v) (fun a => match a with
      | ⟨0, _⟩ => rfl | ⟨1, _⟩ => rfl | ⟨2, _⟩ => rfl)).trans ?_
    refine (shapeCast_ab_1ab_apply _ _ 0 u v).trans ?_
    refine (PlainDot.matmul_zero_apply 96 512 512 none _ _ (ix2 u v)).trans ?_
    refine Finset.sum_congr rfl fun k _ => ?_
    refine congrArg₂ (· * ·) ?_ ?_
    · exact shapeCast_1ab_ab_apply x1 _ u k
    · exact congrFun (shapeCast_self x3 _) (ix2 k v)

end Cert.Joint.Kernel

end
-- ==== Proof.HostWeights.lean ====
/-
  The two weight operands as the region finds them.

  Before the region the program slices the weight (512 x 1024, output column by feature) into its left and right
  halves and transposes each, so the region's third and fourth operands are feature by output column: entry (k, v) of
  the third is the weight's entry (v, k), and entry (k, v) of the fourth is the weight's entry (v, 512 + k).
-/
import proofs.«111491_j87917980549125_1_alg».proof.Proof.Gen.KernelIdeal.Frame
import proofs.«111491_j87917980549125_1_alg».proof.Proof.JointSpec
import Idealize.ShloMosaic.Lib.Pipeline.Value
import Idealize.ShloMosaic.Lib.ValueLayout
import Idealize.ShloMosaic.Lib.StableHlo.Run

noncomputable section

namespace Cert.Joint.Kernel

open Idealize.ShloMosaic Idealize.ShloMosaic.TcCoe Idealize.ShloMosaic.ValueIdx Idealize.SL.Sem
open Cert.KernelIdeal Cert.KernelIdeal.Gen Cert.Joint

variable (m : (ℓ : Loc nD τ sig) → Buf (Elt Ideal) ℓ)

/-- The third operand is the transposed left half of the weight. -/
theorem encWeight_eq (c : Dev nD) :
    (V m c main_v1 : S512x512.Idx → EReal)
      = transpose S512x512 [1, 0] (extractStridedSlice S512x512 ![0, 0] (m ((c : Thread nD τ).loc main_arg2))
          slices_S512x1024_S512x512_0_0) transposes_S512x512_S512x512_1_0 := by
  dsimp only [V, hostOps0]; after_results

/-- The fourth operand is the transposed right half of the weight. -/
theorem decWeight_eq (c : Dev nD) :
    (V m c main_v3 : S512x512.Idx → EReal)
      = transpose S512x512 [1, 0] (extractStridedSlice S512x512 ![0, 512] (m ((c : Thread nD τ).loc main_arg2))
          slices_S512x1024_S512x512_0_512) transposes_S512x512_S512x512_1_0 := by
  dsimp only [V, hostOps0]; after_results

/-- Entry (k, v) of the third operand is the weight's entry (v, k). -/
theorem encWeight_apply (c : Dev nD) (k v : Fin 512) :
    (V m c main_v1 : S512x512.Idx → EReal) (ix2 k v) = m ((c : Thread nD τ).loc main_arg2) (ix2 v (lo k)) := by
  rw [encWeight_eq]
  refine (transpose_ix2_apply _ _ k v).trans ?_
  exact extractStridedSlice_apply _ _ _ (ix2 v k) (ix2 v (lo k)) (fun a => match a with
    | ⟨0, _⟩ => by show v.val = 0 + v.val; omega
    | ⟨1, _⟩ => by show k.val = 0 + k.val; omega)

/-- Entry (k, v) of the fourth operand is the weight's entry (v, 512 + k). -/
theorem decWeight_apply (c : Dev nD) (k v : Fin 512) :
    (V m c main_v3 : S512x512.Idx → EReal) (ix2 k v) = m ((c : Thread nD τ).loc main_arg2) (ix2 v (hi k)) := by
  rw [decWeight_eq]
  refine (transpose_ix2_apply _ _ k v).trans ?_
  exact extractStridedSlice_apply _ _ _ (ix2 v k) (ix2 v (hi k)) (fun a => match a with
    | ⟨0, _⟩ => by show v.val = 0 + v.val; omega
    | ⟨1, _⟩ => by show 512 + k.val = 512 + k.val; rfl)

end Cert.Joint.Kernel

end
-- ==== Proof.KernelArray.lean ====
/-
  From the tiles to the whole result array.

  The grid has 4 x 16 points; point (bi, ti) stages encoder rows 32 ti .. 32 ti + 31 of batch bi, the whole decoder
  block of batch bi and the two weight operands whole, and writes back the tile (bi, 32 ti .. 32 ti + 31, all u, all v)
  of the result. By the body's stored value at a tile index and the blocks read as entries of the argument arrays, what
  point (bi, ti) writes back is that tile of `joint` of the three arguments; the 64 tiles cover the result array
  (batch b, row r lies in the tile of point (b, r / 32)), so the array ends holding `joint` of the arguments.
-/
import proofs.«111491_j87917980549125_1_alg».proof.Proof.Gen.KernelIdeal.Value
import proofs.«111491_j87917980549125_1_alg».proof.Proof.JointSpec
import proofs.«111491_j87917980549125_1_alg».proof.Proof.KernelPayload
import proofs.«111491_j87917980549125_1_alg».proof.Proof.HostWeights
import Idealize.ShloMosaic.Lib.Pipeline.Value
import Idealize.ShloMosaic.Lib.Tactic

noncomputable section

namespace Cert.Joint.Kernel

open Idealize.ShloMosaic Idealize.ShloMosaic.TcCoe Idealize.ShloMosaic.ValueIdx Idealize.SL.Sem
open Idealize.ShloMosaic.Pipeline (Dat)
open Cert.KernelIdeal Cert.KernelIdeal.Gen Cert.Joint

variable (m : (ℓ : Loc nD τ sig) → Buf (Elt Ideal) ℓ) (ρ : Dev nD → PrngReg)

/-- What the result array is to hold: the joint head of the arguments as launched. -/
abbrev result (c : Dev nD) : Buf (Elt Ideal) ((c : Thread nD τ).loc main_v4) :=
  joint (m ((c : Thread nD τ).loc main_arg0)) (m ((c : Thread nD τ).loc main_arg1)) (m ((c : Thread nD τ).loc main_arg2))

theorem zero4 : (![0, 0, 0, 0] : Fin 4 → Nat) = fun _ => 0 := funext fun a => by fin_cases a <;> rfl
theorem zero3 : (![0, 0, 0] : Fin 3 → Nat) = fun _ => 0 := funext fun a => by fin_cases a <;> rfl
theorem zero2 : (![0, 0] : Fin 2 → Nat) = fun _ => 0 := funext fun a => by fin_cases a <;> rfl

/-- The index maps over the grid: the encoder's block follows the result's on batch and row tile; the decoder's on
    batch only; the weight operands and every trailing axis sit at block 0; batch below 4, row tile below 16. -/
theorem idx_facts : ∀ t : Fin cfg0.N,
    win0_0.index t (0 : Fin 3) = win0_4.index t (0 : Fin 4)
    ∧ win0_0.index t (1 : Fin 3) = win0_4.index t (1 : Fin 4)
    ∧ win0_0.index t (2 : Fin 3) = 0
    ∧ win0_1.index t (0 : Fin 3) = win0_4.index t (0 : Fin 4)
    ∧ win0_1.index t (1 : Fin 3) = 0
    ∧ win0_1.index t (2 : Fin 3) = 0
    ∧ win0_2.index t (0 : Fin 2) = 0
    ∧ win0_2.index t (1 : Fin 2) = 0
    ∧ win0_3.index t (0 : Fin 2) = 0
    ∧ win0_3.index t (1 : Fin 2) = 0
    ∧ win0_4.index t (2 : Fin 4) = 0
    ∧ win0_4.index t (3 : Fin 4) = 0
    ∧ win0_4.index t (0 : Fin 4) ≤ 3
    ∧ win0_4.index t (1 : Fin 4) ≤ 15 :=
  (by decide +kernel : ∀ t : Fin grid0.N, _)

/-- Every (batch, row tile) is some point's. -/
theorem idx_onto : ∀ (q0 : Fin 4) (q1 : Fin 16), ∃ t : Fin cfg0.N, win0_4.index t = ![q0.val, q1.val, 0, 0] :=
  (by decide +kernel : ∀ (q0 : Fin 4) (q1 : Fin 16), ∃ t : Fin grid0.N, win0_4.index t = ![q0.val, q1.val, 0, 0])

/-- The encoder tile at point `t`: entry (0, p, k) is the encoder's entry (batch, 32 · row tile + p, k). -/
theorem encBlk_apply (c : Dev nD) (t : Fin cfg0.N) (z : Fin 1) (p : Fin 32) (k : Fin 512) (b : Fin 4) (r : Fin 512)
    (hb : b.val = win0_4.index t (0 : Fin 4)) (hr : r.val = win0_4.index t (1 : Fin 4) * 32 + p.val) :
    (iblk m c 0 t : Vec Ideal S1x32x512 .f32) (ix3 z p k) = m ((c : Thread nD τ).loc main_arg0) (ix3 b r k) := by
  obtain ⟨e0, e1, e2, -⟩ := idx_facts t
  unfold iblk
  rw [View.read_apply]
  show V m c main_arg0 _ = _
  rw [V_main_arg0]
  refine congrArg _ (funext fun a => Fin.ext ?_)
  match a with
  | ⟨0, _⟩ => show win0_0.index t (0 : Fin 3) * 1 + 1 * z.val = b.val; omega
  | ⟨1, _⟩ => show win0_0.index t (1 : Fin 3) * 32 + 1 * p.val = r.val; omega
  | ⟨2, _⟩ => show win0_0.index t (2 : Fin 3) * 512 + 1 * k.val = k.val; omega

/-- The decoder block at point `t`: entry (0, u, k) is the decoder's entry (batch, u, k). -/
theorem decBlk_apply (c : Dev nD) (t : Fin cfg0.N) (z : Fin 1) (u : Fin 96) (k : Fin 512) (b : Fin 4)
    (hb : b.val = win0_4.index t (0 : Fin 4)) :
    (iblk m c 1 t : Vec Ideal S1x96x512 .f32) (ix3 z u k) = m ((c : Thread nD τ).loc main_arg1) (ix3 b u k) := by
  obtain ⟨-, -, -, e3, e4, e5, -⟩ := idx_facts t
  unfold iblk
  rw [View.read_apply]
  show V m c main_arg1 _ = _
  rw [V_main_arg1]
  refine congrArg _ (funext fun a => Fin.ext ?_)
  match a with
  | ⟨0, _⟩ => show win0_1.index t (0 : Fin 3) * 1 + 1 * z.val = b.val; omega
  | ⟨1, _⟩ => show win0_1.index t (1 : Fin 3) * 96 + 1 * u.val = u.val; omega
  | ⟨2, _⟩ => show win0_1.index t (2 : Fin 3) * 512 + 1 * k.val = k.val; omega

/-- The third operand's block at any point is the operand whole: entry (k, v) is the weight's entry (v, k). -/
theorem encWBlk_apply (c : Dev nD) (t : Fin cfg0.N) (k v : Fin 512) :
    (iblk m c 2 t : Vec Ideal S512x512 .f32) (ix2 k v) = m ((c : Thread nD τ).loc main_arg2) (ix2 v (lo k)) := by
  obtain ⟨-, -, -, -, -, -, e6, e7, -⟩ := idx_facts t
  unfold iblk
  rw [View.read_apply]
  refine Eq.trans ?_ (encWeight_apply m c k v)
  show V m c main_v1 _ = V m c main_v1 _
  refine congrArg _ (funext fun a => Fin.ext ?_)
  match a with
  | ⟨0, _⟩ => show win0_2.index t (0 : Fin 2) * 512 + 1 * k.val = k.val; omega
  | ⟨1, _⟩ => show win0_2.index t (1 : Fin 2) * 512 + 1 * v.val = v.val; omega

/-- The fourth operand's block at any point is the operand whole: entry (k, v) is the weight's entry (v, 512 + k). -/
theorem decWBlk_apply (c : Dev nD) (t : Fin cfg0.N) (k v : Fin 512) :
    (iblk m c 3 t : Vec Ideal S512x512 .f32) (ix2 k v) = m ((c : Thread nD τ).loc main_arg2) (ix2 v (hi k)) := by
  obtain ⟨-, -, -, -, -, -, -, -, e8, e9, -⟩ := idx_facts t
  unfold iblk
  rw [View.read_apply]
  refine Eq.trans ?_ (decWeight_apply m c k v)
  show V m c main_v3 _ = V m c main_v3 _
  refine congrArg _ (funext fun a => Fin.ext ?_)
  match a with
  | ⟨0, _⟩ => show win0_3.index t (0 : Fin 2) * 512 + 1 * k.val = k.val; omega
  | ⟨1, _⟩ => show win0_3.index t (1 : Fin 2) * 512 + 1 * v.val = v.val; omega

/-- The body's stored value at a tile index is the joint head at the array index under it. -/
theorem tile_apply (c : Dev nD) (t : Fin cfg0.N) (j : S1x32x96x512.Idx) :
    k0_pay1 (F := Ideal) (iblk m c 0 t) (iblk m c 1 t) (iblk m c 2 t) (iblk m c 3 t) j
      = result m c (((cfg0.win 4).blk t).view.emb j) := by
  obtain ⟨z, p, u, v, rfl⟩ : ∃ (z : Fin 1) (p : Fin 32) (u : Fin 96) (v : Fin 512), j = ix4 z p u v :=
    ⟨j 0, j 1, j 2, j 3, eq_ix4 j⟩
  obtain ⟨-, -, -, -, -, -, -, -, -, -, e10, e11, l0, l1⟩ := idx_facts t
  have hz : z.val = 0 := by omega
  have he : ((cfg0.win 4).blk t).view.emb (ix4 z p u v)
      = ix4 (⟨win0_4.index t (0 : Fin 4), by omega⟩ : Fin 4)
          (⟨win0_4.index t (1 : Fin 4) * 32 + p.val, by have := p.isLt; omega⟩ : Fin 512) u v := by
    funext a; apply Fin.ext
    match a with
    | ⟨0, _⟩ => show win0_4.index t (0 : Fin 4) * 1 + 1 * z.val = win0_4.index t (0 : Fin 4); omega
    | ⟨1, _⟩ => show win0_4.index t (1 : Fin 4) * 32 + 1 * p.val = win0_4.index t (1 : Fin 4) * 32 + p.val; omega
    | ⟨2, _⟩ => show win0_4.index t (2 : Fin 4) * 96 + 1 * u.val = u.val; omega
    | ⟨3, _⟩ => show win0_4.index t (3 : Fin 4) * 512 + 1 * v.val = v.val; omega
  rw [he]
  refine (pay_apply (iblk m c 0 t) (iblk m c 1 t) (iblk m c 2 t) (iblk m c 3 t) z p u v).trans ?_
  show _ = encProj _ _ _ _ v + decProj _ _ _ u v
  unfold encProj decProj
  refine congrArg₂ (· + ·) (Finset.sum_congr rfl fun k _ => congrArg₂ (· * ·) ?_ ?_)
    (Finset.sum_congr rfl fun k _ => congrArg₂ (· * ·) ?_ ?_)
  · exact encBlk_apply m c t 0 p k _ _ rfl rfl
  · exact encWBlk_apply m c t k v
  · exact decBlk_apply m c t 0 u k _ rfl
  · exact decWBlk_apply m c t k v

/-- What point `t` writes back is its tile of the joint head of the arguments. -/
theorem flushed_eq (c : Dev nD) (t : Fin cfg0.N) :
    (dats m 0 c).flushed 4 t = ((cfg0.win 4).blk t).view.read (Elt Ideal) (result m c) := by
  rw [Cert.KernelIdeal.Value.flushed4]
  unfold out0_4
  rw [View.canon_unit_zero zero4]
  simp only [View.ld_unit_zero (S := S1x32x512) zero3, View.ld_unit_zero (S := S1x96x512) zero3,
    View.ld_unit_zero (S := S512x512) zero2]
  funext j
  exact tile_apply m c t j

/-- An index of the result array is in point `t`'s tile iff each coordinate is in the tile's range on its axis. -/
theorem mem_tile (t : Fin cfg0.N) (i : S4x512x96x512.Idx) :
    i ∈ ((cfg0.win 4).blk t).view.set ↔ ∀ a : Fin 4, win0_4.index t a * S1x32x96x512.size a ≤ (i a).val
      ∧ (i a).val < win0_4.index t a * S1x32x96x512.size a + S1x32x96x512.size a := by
  show i ∈ ((View.whole main_v4).slice (win0_4.rect t)).set ↔ _
  rw [View.set_slice_whole, Rect.mem_set_unit]
  exact Iff.rfl

/-- The tiles cover the result array: batch b, row r is in the tile of point (b, r / 32). -/
theorem covered (i : S4x512x96x512.Idx) :
    ∃ t : Fin cfg0.N, (cfg0.win 4).flush t = true ∧ i ∈ ((cfg0.win 4).blk t).view.set := by
  have hi0 : (i 0).val < 4 := (i 0).isLt
  have hi1 : (i 1).val < 512 := (i 1).isLt
  have hi2 : (i 2).val < 96 := (i 2).isLt
  have hi3 : (i 3).val < 512 := (i 3).isLt
  obtain ⟨t, ht⟩ := idx_onto ⟨(i 0).val, hi0⟩ ⟨(i 1).val / 32, by omega⟩
  have q0 : win0_4.index t (0 : Fin 4) = (i 0).val := congrFun ht 0
  have q1 : win0_4.index t (1 : Fin 4) = (i 1).val / 32 := congrFun ht 1
  have q2 : win0_4.index t (2 : Fin 4) = 0 := congrFun ht 2
  have q3 : win0_4.index t (3 : Fin 4) = 0 := congrFun ht 3
  refine ⟨t, flush0_4 t, ?_⟩
  rw [mem_tile]
  intro a
  match a with
  | ⟨0, _⟩ => show win0_4.index t (0 : Fin 4) * 1 ≤ (i 0).val ∧ (i 0).val < win0_4.index t (0 : Fin 4) * 1 + 1; omega
  | ⟨1, _⟩ => show win0_4.index t (1 : Fin 4) * 32 ≤ (i 1).val ∧ (i 1).val < win0_4.index t (1 : Fin 4) * 32 + 32; omega
  | ⟨2, _⟩ => show win0_4.index t (2 : Fin 4) * 96 ≤ (i 2).val ∧ (i 2).val < win0_4.index t (2 : Fin 4) * 96 + 96; omega
  | ⟨3, _⟩ => show win0_4.index t (3 : Fin 4) * 512 ≤ (i 3).val ∧ (i 3).val < win0_4.index t (3 : Fin 4) * 512 + 512; omega

/-- The result array after the run is the joint head of the arguments. -/
theorem final (c : Dev nD) : (dats m 0 c).arrAt 4 cfg0.N = result m c :=
  (dats m 0 c).arrAt_eq_of_cover 4 (result m c) (fun t _ => flushed_eq m c t) covered

/-- The kernel's run, read: the result array at the joint head of the arguments, the arguments unchanged. -/
theorem run : θ_run defs (onTc (τ := τ) (main (F := Ideal))) ⟨m, fun _ => 0, ρ⟩ fun r => ∀ c : Dev nD,
      r.2.mem ((c : Thread nD τ).loc main_v4) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩)
    (Cert.KernelIdeal.Value.run_blocks m ρ)

end Cert.Joint.Kernel

end
-- ==== Proof.lean ====
/-
  The joint head of a transducer: out (b, t, u, v) = enc (b, t, :) . W (v, :512) + dec (b, u, :) . W (v, 512:).

  The kernel splits the weight into its two halves and transposes them on the host, then on a 4 x 16 grid multiplies a
  32-row encoder tile and the batch's decoder block by the halves and writes the broadcast sum of the two products as
  one tile of the result. The reference contracts the encoder and the decoder with the two halves directly and adds the
  products with broadcasting. On the ideal values a change of float format is the identity and both matrix products are
  plain finite sums, so both programs compute, at every output index, the same two sums of the same products in the
  same order: the function `Cert.Joint.joint` of the three arguments. No law of the extended reals beyond re-indexing
  a finite sum is used, and the inputs' finiteness is not needed.

  The pieces: `JointSpec` states the function; `RefJoint` reads the reference's last stage as it; `KernelPayload`
  reads the body's stored value at a tile index (with `LibPlainDot` for the two matrix products); `HostWeights` reads
  the transposed halves as entries of the weight; `KernelArray` puts the 64 tiles together into the result array.
  The three frames are the generated ones (the reference's is its run with the result dropped), and the idealization
  rewrote nothing, so `preserves` is trivial.
-/
import proofs.«111491_j87917980549125_1_alg».proof.Defs
import proofs.«111491_j87917980549125_1_alg».proof.Proof.Gen.Kernel
import proofs.«111491_j87917980549125_1_alg».proof.Proof.Gen.Kernel.Skeleton
import proofs.«111491_j87917980549125_1_alg».proof.Proof.Gen.Kernel.Launch
import proofs.«111491_j87917980549125_1_alg».proof.Proof.Gen.Kernel.Points
import proofs.«111491_j87917980549125_1_alg».proof.Proof.Gen.Kernel.Frame
import proofs.«111491_j87917980549125_1_alg».proof.Proof.Gen.KernelIdeal
import proofs.«111491_j87917980549125_1_alg».proof.Proof.Gen.KernelIdeal.Skeleton
import proofs.«111491_j87917980549125_1_alg».proof.Proof.Gen.KernelIdeal.Launch
import proofs.«111491_j87917980549125_1_alg».proof.Proof.Gen.KernelIdeal.Points
import proofs.«111491_j87917980549125_1_alg».proof.Proof.Gen.KernelIdeal.Frame
import proofs.«111491_j87917980549125_1_alg».proof.Proof.Gen.ReferenceIdeal
import proofs.«111491_j87917980549125_1_alg».proof.Proof.Gen.Pre_finite_inputs
import proofs.«111491_j87917980549125_1_alg».proof.Proof.Gen.KernelIdeal.Value
import proofs.«111491_j87917980549125_1_alg».proof.Proof.Gen.ReferenceIdeal.Run
import proofs.«111491_j87917980549125_1_alg».proof.Proof.Gen.ReferenceIdeal.Read
import proofs.«111491_j87917980549125_1_alg».proof.Proof.RefJoint
import proofs.«111491_j87917980549125_1_alg».proof.Proof.KernelArray
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel on the ideal values. -/
theorem frame_kernelIdeal : Cert.frame_KernelIdeal := fun m ρ _ => Cert.KernelIdeal.Gen.frame m ρ

/-- So does the reference: its run, the result forgotten. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the three arguments both programs end with the result array at the joint head of the
    arguments: the kernel tile by tile, the reference stage by stage. -/
theorem algebraic : Cert.algebraic_KernelIdeal_ReferenceIdeal := by
  intro m ρ m' ρ' _ hagree
  refine ⟨fun c => Cert.Joint.Kernel.result m c, Cert.Joint.Kernel.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v8_eq, Cert.Joint.Reference.stage_eq_joint, (hagree c).1, (hagree c).2.1,
    (hagree c).2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
